-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S112x128 : Shape := ⟨2, ![112, 128]⟩
abbrev S112 : Shape := ⟨1, ![112]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S112x128 : S_.BroadcastsInDim S112x128 (![] : Fin 0 → Fin S112x128.rank)
  reducesTo_S112x128_S_d0_1 : S112x128.ReducesTo [0, 1] S_
  bcast_S_S112 : S_.BroadcastsInDim S112 (![] : Fin 0 → Fin S112.rank)
  reducesTo_S112_S_d0 : S112.ReducesTo [0] S_

variable [Facts]

def fn_part2 {F : FTy → Type} [FloatOps F] (main_arg8 : FVec F S112x128 .f32) (main_arg9 : FVec F S112 .f32) (main_v33 : IVec S_ 1) : IVec S_ 1 :=
  let main_v34 : FVec F S112x128 .f32 := Host.absf main_arg8
  let main_cst_12 : FVec F S_ .f32 := constant S_ .f32 0x7F800000#32
  let main_v35 : FVec F S112x128 .f32 := broadcastInDim S112x128 ![] bcast_S_S112x128 main_cst_12
  let main_v36 : IVec S112x128 1 := cmpf .olt main_v34 main_v35
  let main_c_13 : IVec S_ 1 := constantI S_ 1 1#1
  let main_v37 : IVec S_ 1 := (fun x v => Host.reduce IntOp.andi x v reducesTo_S112x128_S_d0_1 h_S_) main_v36 main_c_13
  let main_v38 : IVec S_ 1 := andi main_v33 main_v37
  let main_v39 : FVec F S112 .f32 := Host.absf main_arg9
  let main_cst_14 : FVec F S_ .f32 := constant S_ .f32 0x7F800000#32
  let main_v40 : FVec F S112 .f32 := broadcastInDim S112 ![] bcast_S_S112 main_cst_14
  let main_v41 : IVec S112 1 := cmpf .olt main_v39 main_v40
  let main_c_15 : IVec S_ 1 := constantI S_ 1 1#1
  let main_v42 : IVec S_ 1 := (fun x v => Host.reduce IntOp.andi x v reducesTo_S112_S_d0 h_S_) main_v41 main_c_15
  let main_v43 : IVec S_ 1 := andi main_v38 main_v42
  main_v43

def fn_part1 {F : FTy → Type} [FloatOps F] (main_arg5 : FVec F S128x128 .f32) (main_arg6 : FVec F S128 .f32) (main_arg7 : FVec F S128x128 .f32) (main_arg8 : FVec F S112x128 .f32) (main_arg9 : FVec F S112 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S112x128 .f32) (main_arg9 : FVec F S112 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S112x128 : Shape := ⟨2, ![112, 128]⟩
abbrev S112 : Shape := ⟨1, ![112]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S5000x128 : Shape := ⟨2, ![5000, 128]⟩
abbrev S128x112 : Shape := ⟨2, ![128, 112]⟩
abbrev S1x112 : Shape := ⟨2, ![1, 112]⟩
abbrev S100000x112 : Shape := ⟨2, ![100000, 112]⟩
abbrev S5000x112 : Shape := ⟨2, ![5000, 112]⟩

abbrev nBuf : Space → Nat
  | .hbm => 65
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S112x128, .f32⟩
  | .hbm, ⟨9, _⟩ => ⟨S112, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000x1, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x128, .f32⟩
  | .hbm, ⟨33, _⟩ => ⟨S_, .f32⟩
  | .hbm, ⟨34, _⟩ => ⟨S100000x128, .f32⟩
  | .hbm, ⟨35, _⟩ => ⟨S1600000x1, .i32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S128x128, .f32⟩
  | .hbm, ⟨40, _⟩ => ⟨S128x128, .f32⟩
  | .hbm, ⟨41, _⟩ => ⟨S1x128, .f32⟩
  | .hbm, ⟨42, _⟩ => ⟨S100000x128, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S100000x128, .f32⟩
  | .hbm, ⟨57, _⟩ => ⟨S100000x128, .f32⟩
  | .hbm, ⟨58, _⟩ => ⟨S128x128, .f32⟩
  | .hbm, ⟨59, _⟩ => ⟨S128x128, .f32⟩
  | .hbm, ⟨60, _⟩ => ⟨S1x128, .f32⟩
  | .hbm, ⟨61, _⟩ => ⟨S100000x128, .f32⟩
  | .hbm, ⟨62, _⟩ => ⟨S128x112, .f32⟩
  | .hbm, ⟨63, _⟩ => ⟨S1x112, .f32⟩
  | .hbm, ⟨64, _⟩ => ⟨S100000x112, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x112, .f32⟩
  | .local _ .vmem, ⟨21, _⟩ => ⟨S1x112, .f32⟩
  | .local _ .vmem, ⟨22, _⟩ => ⟨S5000x112, .f32⟩
  | .local _ .vmem, ⟨23, _⟩ => ⟨S5000x112, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_4 : Ref sig .tc := ⟨.hbm, 43, rfl⟩
abbrev main_v27 : Ref sig .tc := ⟨.hbm, 44, rfl⟩
abbrev main_v28 : Ref sig .tc := ⟨.hbm, 45, rfl⟩
abbrev main_c_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x112 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x112 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x112 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  transposes_S112x128_S128x112_1_0 : S112x128.Transposes [1, 0] S128x112
  shapeCasts_S112_S1x112 : S112.ShapeCasts S1x112
  inb_S128x112_S128x112_0_0 : ∀ a, (![0, 0] : Fin 2 → Nat) a + S128x112.size a ≤ S128x112.size a
  h_S128x112 : 0 < S128x112.numel
  shapeCasts_S128x112_S128x112 : S128x112.ShapeCasts S128x112
  inb_S1x112_S1x112_0_0 : ∀ a, (![0, 0] : Fin 2 → Nat) a + S1x112.size a ≤ S1x112.size a
  h_S1x112 : 0 < S1x112.numel
  shapeCasts_S1x112_S1x112 : S1x112.ShapeCasts S1x112
  broadcasts_S1x112_S5000x112 : S1x112.Broadcasts S5000x112
  inb_S5000x112_S5000x112_0_0 : ∀ a, (![0, 0] : Fin 2 → Nat) a + S5000x112.size a ≤ S5000x112.size a
  h_S5000x112 : 0 < S5000x112.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x112_S5000x112_1_0_0_1_n_n_wf : DotDims.WF S5000x128 S128x112 S5000x112 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x112.size a ≤ S128x112.size a
  hwx2_1 : ∀ i : grid2.Coords, EltTy.bits .f32 = 32 ∨ (Rect.block (s := S128x112) S128x112.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x112.size a ≤ S1x112.size a
  hwx2_2 : ∀ i : grid2.Coords, EltTy.bits .f32 = 32 ∨ (Rect.block (s := S1x112) S1x112.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x112.size a ≤ S100000x112.size a
  hwx2_3 : ∀ i : grid2.Coords, EltTy.bits .f32 = 32 ∨ (Rect.block (s := S100000x112) S5000x112.size (cc2_transform_3 i) (hinb2_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x112_S5000x112_1_0_0_1_n_n : DotDims S5000x128 S128x112 S5000x112 where
  lhsContracting := [1]
  rhsContracting := [0]
  lhsNonContracting := [0]
  rhsNonContracting := [1]
  lhsBatch := []
  rhsBatch := []
  wf := dot_S5000x128_S128x112_S5000x112_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v42) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S128x112.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S1x112.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v45) S5000x112.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S112x128 : Shape := ⟨2, ![112, 128]⟩
abbrev S112 : Shape := ⟨1, ![112]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S128x112 : Shape := ⟨2, ![128, 112]⟩
abbrev S100000x112 : Shape := ⟨2, ![100000, 112]⟩
abbrev S1x112 : Shape := ⟨2, ![1, 112]⟩

abbrev nBuf : Space → Nat
  | .hbm => 95
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S112x128, .f32⟩
  | .hbm, ⟨9, _⟩ => ⟨S112, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S100000, .f32⟩
  | .hbm, ⟨31, _⟩ => ⟨S1600000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x128, .f32⟩
  | .hbm, ⟨38, _⟩ => ⟨S100000x128, .f32⟩
  | .hbm, ⟨39, _⟩ => ⟨S128x128, .f32⟩
  | .hbm, ⟨40, _⟩ => ⟨S100000x128, .f32⟩
  | .hbm, ⟨41, _⟩ => ⟨S1x128, .f32⟩
  | .hbm, ⟨42, _⟩ => ⟨S100000x128, .f32⟩
  | .hbm, ⟨43, _⟩ => ⟨S100000x128, .f32⟩
  | .hbm, ⟨44, _⟩ => ⟨S128x128, .f32⟩
  | .hbm, ⟨45, _⟩ => ⟨S100000x128, .f32⟩
  | .hbm, ⟨46, _⟩ => ⟨S100000x128, .f32⟩
  | .hbm, ⟨47, _⟩ => ⟨S_, .f32⟩
  | .hbm, ⟨48, _⟩ => ⟨S100000x128, .f32⟩
  | .hbm, ⟨49, _⟩ => ⟨S100000x128, .f32⟩
  | .hbm, ⟨50, _⟩ => ⟨S1x1600000, .i32⟩
  | .hbm, ⟨51, _⟩ => ⟨S1600000, .i32⟩
  | .hbm, ⟨52, _⟩ => ⟨S1x1600000, .i32⟩
  | .hbm, ⟨53, _⟩ => ⟨S1600000, .i32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000x128, .f32⟩
  | .hbm, ⟨63, _⟩ => ⟨S_, .f32⟩
  | .hbm, ⟨64, _⟩ => ⟨S100000x128, .f32⟩
  | .hbm, ⟨65, _⟩ => ⟨S1600000x1, .i32⟩
  | .hbm, ⟨66, _⟩ => ⟨S100000x128, .f32⟩
  | .hbm, ⟨67, _⟩ => ⟨S_, .f32⟩
  | .hbm, ⟨68, _⟩ => ⟨S1600000, .f32⟩
  | .hbm, ⟨69, _⟩ => ⟨S_, .f32⟩
  | .hbm, ⟨70, _⟩ => ⟨S100000, .f32⟩
  | .hbm, ⟨71, _⟩ => ⟨S1600000x1, .i32⟩
  | .hbm, ⟨72, _⟩ => ⟨S100000, .f32⟩
  | .hbm, ⟨73, _⟩ => ⟨S_, .f32⟩
  | .hbm, ⟨74, _⟩ => ⟨S100000, .f32⟩
  | .hbm, ⟨75, _⟩ => ⟨S100000, .f32⟩
  | .hbm, ⟨76, _⟩ => ⟨S100000x1, .f32⟩
  | .hbm, ⟨77, _⟩ => ⟨S100000x128, .f32⟩
  | .hbm, ⟨78, _⟩ => ⟨S100000x128, .f32⟩
  | .hbm, ⟨79, _⟩ => ⟨S128x128, .f32⟩
  | .hbm, ⟨80, _⟩ => ⟨S100000x128, .f32⟩
  | .hbm, ⟨81, _⟩ => ⟨S1x128, .f32⟩
  | .hbm, ⟨82, _⟩ => ⟨S100000x128, .f32⟩
  | .hbm, ⟨83, _⟩ => ⟨S100000x128, .f32⟩
  | .hbm, ⟨84, _⟩ => ⟨S128x128, .f32⟩
  | .hbm, ⟨85, _⟩ => ⟨S100000x128, .f32⟩
  | .hbm, ⟨86, _⟩ => ⟨S100000x128, .f32⟩
  | .hbm, ⟨87, _⟩ => ⟨S_, .f32⟩
  | .hbm, ⟨88, _⟩ => ⟨S100000x128, .f32⟩
  | .hbm, ⟨89, _⟩ => ⟨S100000x128, .f32⟩
  | .hbm, ⟨90, _⟩ => ⟨S128x112, .f32⟩
  | .hbm, ⟨91, _⟩ => ⟨S100000x112, .f32⟩
  | .hbm, ⟨92, _⟩ => ⟨S1x112, .f32⟩
  | .hbm, ⟨93, _⟩ => ⟨S100000x112, .f32⟩
  | .hbm, ⟨94, _⟩ => ⟨S100000x112, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call0_cst : Ref sig .tc := ⟨.hbm, 47, rfl⟩
abbrev main_call0_v0 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_4 : Ref sig .tc := ⟨.hbm, 54, rfl⟩
abbrev main_v36 : Ref sig .tc := ⟨.hbm, 55, rfl⟩
abbrev main_v37 : Ref sig .tc := ⟨.hbm, 56, rfl⟩
abbrev main_c_5 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_6 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_7 : Ref sig .tc := ⟨.hbm, 67, rfl⟩
abbrev main_v46 : Ref sig .tc := ⟨.hbm, 68, rfl⟩
abbrev main_cst_8 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_9 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_call1_cst : Ref sig .tc := ⟨.hbm, 87, rfl⟩
abbrev main_call1_v0 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S112x128_S128x112_1_0 : S112x128.Transposes [1, 0] S128x112
  bcast_S112_S1x112_1 : S112.BroadcastsInDim S1x112 (![1] : Fin 1 → Fin S1x112.rank)
  bcast_S1x112_S100000x112_0_1 : S1x112.BroadcastsInDim S100000x112 (![0, 1] : Fin 2 → Fin S100000x112.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x112_S100000x112_1_0_0_1_n_n_wf : DotDims.WF S100000x128 S128x112 S100000x112 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x112_S100000x112_1_0_0_1_n_n : DotDims S100000x128 S128x112 S100000x112 where
  lhsContracting := [1]
  rhsContracting := [0]
  lhsNonContracting := [0]
  rhsNonContracting := [1]
  lhsBatch := []
  rhsBatch := []
  wf := dot_S100000x128_S128x112_S100000x112_1_0_0_1_n_n_wf

class Facts : Prop extends Facts₀ where

variable [Facts]
-- ==== Proof.Spec.lean ====
/-
  The mathematics of the two-layer neighbour-mean network, as plain functions on the extended reals.

  A node-feature array has one row per node; `agg` stands for the neighbour-mean aggregation (a gather along
  the edges' sources, a segment sum over their targets, a division by the clamped in-degree), which both
  programs compute by the same host operations and which is never opened here.  One layer sends the pair
  (aggregated features `a`, own features `x`) to

      relu (a · Wlᵀ + x · Wrᵀ + b)

  row by row: the entry at node `p`, channel `q` depends only on row `p` of `a` and of `x`.  That locality is
  why the layer may be stated for any number of rows `R`: a block of rows of the layer's result is the layer of
  the same block of rows of its operands (`layerT_congr`, `headT_congr`).  The weights enter TRANSPOSED, indexed
  (input channel, output channel), and the bias as a one-row matrix, which is how a block computation reads them;
  `tr` and `row1` bring a weight matrix and a bias vector into that form.  The head is the affine map
  h · Woᵀ + bo without the relu.
-/
import Idealize.ShloMosaic.Lib.ValueIdx
import Idealize.ShloMosaic.PureOps.Ideal.Laws

noncomputable section

namespace Cert.Sage

open Idealize.ShloMosaic Idealize.ShloMosaic.ValueIdx

/-- A matrix read transposed: entry (i, j) of the result is entry (j, i) of the operand. -/
def tr {A B : Nat} (w : FVec Ideal ⟨2, ![A, B]⟩ .f32) : FVec Ideal ⟨2, ![B, A]⟩ .f32 :=
  fun i => w (ix2 (i 1) (i 0))

/-- A vector as a matrix of one row. -/
def row1 {A : Nat} (b : FVec Ideal ⟨1, ![A]⟩ .f32) : FVec Ideal ⟨2, ![1, A]⟩ .f32 :=
  fun i => b (ix1 (i 1))

/-- One layer on `R` rows, the weights transposed (`wl (k, q)` multiplies input channel `k` into output channel `q`):
    entry (p, q) is `max ((∑ₖ a(p,k)·wl(k,q) + ∑ₖ x(p,k)·wr(k,q)) + b(0,q)) 0`. -/
def layerT (R : Nat) (a x : FVec Ideal ⟨2, ![R, 128]⟩ .f32) (wl : FVec Ideal ⟨2, ![128, 128]⟩ .f32)
    (b : FVec Ideal ⟨2, ![1, 128]⟩ .f32) (wr : FVec Ideal ⟨2, ![128, 128]⟩ .f32) : FVec Ideal ⟨2, ![R, 128]⟩ .f32 :=
  fun i => max (((∑ k : Fin 128, a (ix2 (i 0) k) * wl (ix2 k (i 1))) + ∑ k : Fin 128, x (ix2 (i 0) k) * wr (ix2 k (i 1)))
    + b (ix2 (0 : Fin 1) (i 1))) (Ideal.ofBits .f32 0x00000000#32)

/-- The output head on `R` rows: entry (p, q) is `∑ₖ h(p,k)·wo(k,q) + bo(0,q)`. -/
def headT (R : Nat) (h : FVec Ideal ⟨2, ![R, 128]⟩ .f32) (wo : FVec Ideal ⟨2, ![128, 112]⟩ .f32)
    (bo : FVec Ideal ⟨2, ![1, 112]⟩ .f32) : FVec Ideal ⟨2, ![R, 112]⟩ .f32 :=
  fun i => (∑ k : Fin 128, h (ix2 (i 0) k) * wo (ix2 k (i 1))) + bo (ix2 (0 : Fin 1) (i 1))

/-- Locality of a layer: its entry at (p, q) reads row `p` of the two feature operands, column `q` of the two weight
    matrices and entry `q` of the bias, and nothing else.  So two layers, on any numbers of rows, agree at a pair of
    entries as soon as their operands agree on those rows, columns and bias entries. -/
theorem layerT_congr {R N : Nat} (a x : FVec Ideal ⟨2, ![R, 128]⟩ .f32) (a' x' : FVec Ideal ⟨2, ![N, 128]⟩ .f32)
    (wl wl' : FVec Ideal ⟨2, ![128, 128]⟩ .f32) (b b' : FVec Ideal ⟨2, ![1, 128]⟩ .f32) (wr wr' : FVec Ideal ⟨2, ![128, 128]⟩ .f32)
    (i : (⟨2, ![R, 128]⟩ : Shape).Idx) (i' : (⟨2, ![N, 128]⟩ : Shape).Idx)
    (ha : ∀ k : Fin 128, a (ix2 (i 0) k) = a' (ix2 (i' 0) k)) (hx : ∀ k : Fin 128, x (ix2 (i 0) k) = x' (ix2 (i' 0) k))
    (hwl : ∀ k : Fin 128, wl (ix2 k (i 1)) = wl' (ix2 k (i' 1))) (hwr : ∀ k : Fin 128, wr (ix2 k (i 1)) = wr' (ix2 k (i' 1)))
    (hb : b (ix2 (0 : Fin 1) (i 1)) = b' (ix2 (0 : Fin 1) (i' 1))) :
    layerT R a x wl b wr i = layerT N a' x' wl' b' wr' i' := by
  unfold layerT
  simp only [ha, hx, hwl, hwr, hb]

/-- Locality of the head, in the same sense. -/
theorem headT_congr {R N : Nat} (h : FVec Ideal ⟨2, ![R, 128]⟩ .f32) (h' : FVec Ideal ⟨2, ![N, 128]⟩ .f32)
    (wo wo' : FVec Ideal ⟨2, ![128, 112]⟩ .f32) (bo bo' : FVec Ideal ⟨2, ![1, 112]⟩ .f32)
    (i : (⟨2, ![R, 112]⟩ : Shape).Idx) (i' : (⟨2, ![N, 112]⟩ : Shape).Idx)
    (hh : ∀ k : Fin 128, h (ix2 (i 0) k) = h' (ix2 (i' 0) k))
    (hwo : ∀ k : Fin 128, wo (ix2 k (i 1)) = wo' (ix2 k (i' 1)))
    (hb : bo (ix2 (0 : Fin 1) (i 1)) = bo' (ix2 (0 : Fin 1) (i' 1))) :
    headT R h wo bo i = headT N h' wo' bo' i' := by
  unfold headT
  simp only [hh, hwo, hb]

/-- The whole network on `N` nodes over an aggregation `agg`: two layers and the head. -/
def net (N : Nat) (agg : FVec Ideal ⟨2, ![N, 128]⟩ .f32 → FVec Ideal ⟨2, ![N, 128]⟩ .f32)
    (x : FVec Ideal ⟨2, ![N, 128]⟩ .f32)
    (wl1 : FVec Ideal ⟨2, ![128, 128]⟩ .f32) (b1 : FVec Ideal ⟨1, ![128]⟩ .f32) (wr1 : FVec Ideal ⟨2, ![128, 128]⟩ .f32)
    (wl2 : FVec Ideal ⟨2, ![128, 128]⟩ .f32) (b2 : FVec Ideal ⟨1, ![128]⟩ .f32) (wr2 : FVec Ideal ⟨2, ![128, 128]⟩ .f32)
    (wo : FVec Ideal ⟨2, ![112, 128]⟩ .f32) (bo : FVec Ideal ⟨1, ![112]⟩ .f32) : FVec Ideal ⟨2, ![N, 112]⟩ .f32 :=
  headT N
    (layerT N (agg (layerT N (agg x) x (tr wl1) (row1 b1) (tr wr1))) (layerT N (agg x) x (tr wl1) (row1 b1) (tr wr1))
      (tr wl2) (row1 b2) (tr wr2))
    (tr wo) (row1 bo)

end Cert.Sage

end
-- ==== Proof.LibPlainMatmul.lean ====
/-
  A plain matrix product read at one entry, over the extended reals.

  For the dimension numbers of an `M×K` by `K×N` product (`DotDims.plain M K N`: the left operand contracted on its
  second axis, the right on its first, no batch axis) the product accumulated into the zero splat has, at row `r` and
  column `c`, the entry `∑ k, lhs (r, k) * rhs (k, c)`: the contraction index, a one-axis multi-index, is re-indexed
  by its one coordinate `k : Fin K`, and the operand indices the dimension numbers compute are `(r, k)` and `(k, c)`.
  Stated for every `M`, `K`, `N`, with the indices built by `ix2`.
-/
import Idealize.ShloMosaic.Lib.ValueIdx
import Idealize.ShloMosaic.PureOps.Ideal.Laws

noncomputable section

namespace Cert.Lib.PlainMatmul

open Idealize.ShloMosaic Idealize.ShloMosaic.ValueIdx

variable {M K N : Nat}

/-- The left operand's row coordinate is the result's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction index's one coordinate. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction index's one coordinate. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the result's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- THE ENTRY: an `M×K` by `K×N` product into the zero accumulator, at `(r, c)`, is the sum over `k` of
    `lhs (r, k) * rhs (k, c)` — no rounding, no order, whatever the operands' formats and the precision hint. -/
theorem matmul_zero_apply {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant (F := Ideal) ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact (lhs_col _ _).trans hk)
  have er : (DotDims.plain M K N).rhsIdx (ix2 r c) ((contrEquiv1 (DotDims.plain M K N) K rfl rfl).symm k) = ix2 k c :=
    funext fun a => Fin.ext (by
      match a with
      | ⟨0, _⟩ => exact (rhs_row _ _).trans hk
      | ⟨1, _⟩ => exact rhs_col _ _)
  rw [el, er]

end Cert.Lib.PlainMatmul

end
-- ==== Proof.Payload.lean ====
/-
  What one grid point's body computes, at the extended reals: the block it stores is the layer (or the head) of the
  blocks it loaded.

  A change of float format is the identity here, a shape cast to the same shape is the identity, a matrix product
  into the zero accumulator is the plain sum over the contracted channel, the one-row bias is broadcast down the rows,
  and the relu is the maximum with zero.  So the stored block of a layer's body, at row `p` and channel `q`, is

      max ((∑ₖ a(p,k)·wl(k,q) + ∑ₖ x(p,k)·wr(k,q)) + b(0,q)) 0,

  which is `Sage.layerT` on the block's 5000 rows; the head's body is `Sage.headT` likewise.
-/
import proofs.«161316_j79061757985056_1_alg».proof.Proof.Gen.KernelIdeal.Skeleton
import proofs.«161316_j79061757985056_1_alg».proof.Proof.Spec
import proofs.«161316_j79061757985056_1_alg».proof.Proof.LibPlainMatmul
import Idealize.ShloMosaic.Lib.Pipeline.Value
import Idealize.ShloMosaic.Lib.ValueLayout

noncomputable section

namespace Cert.KernelIdeal.Payload

open Idealize.ShloMosaic Idealize.ShloMosaic.ValueIdx Cert.KernelIdeal Cert.KernelIdeal.Gen

/-- The dimension numbers the three bodies' products carry are the plain ones. -/
theorem dot128_eq : dot_S5000x128_S128x128_S5000x128_1_0_0_1_n_n = DotDims.plain 5000 128 128 := rfl
theorem dot112_eq : dot_S5000x128_S128x112_S5000x112_1_0_0_1_n_n = DotDims.plain 5000 128 112 := rfl

/-- The first layer's body. -/
theorem pay0_eq (v0 v3 : Vec Ideal S5000x128 .f32) (v5 v8 : Vec Ideal S128x128 .f32) (v14 : Vec Ideal S1x128 .f32) :
    k0_pay1 (F := Ideal) v0 v3 v5 v8 v14 = Sage.layerT 5000 v0 v3 v5 v14 v8 := by
  funext j
  obtain ⟨p, q, rfl⟩ : ∃ (p : Fin 5000) (q : Fin 128), j = ix2 p q := ⟨j 0, j 1, eq_ix2 j⟩
  unfold k0_pay1
  simp only [shapeCast_self, matmul]
  rw [maximumf_apply, addf_apply, addf_apply, broadcast_apply, broadcastTo_1b_ab_apply, dot128_eq,
    Cert.Lib.PlainMatmul.matmul_zero_apply, Cert.Lib.PlainMatmul.matmul_zero_apply]
  rfl

/-- The second layer's body: the same computation (its second operand goes through one more cast to its own shape). -/
theorem pay1_eq (v0 v3 : Vec Ideal S5000x128 .f32) (v6 v9 : Vec Ideal S128x128 .f32) (v15 : Vec Ideal S1x128 .f32) :
    k1_pay1 (F := Ideal) v0 v3 v6 v9 v15 = Sage.layerT 5000 v0 v3 v6 v15 v9 := by
  funext j
  obtain ⟨p, q, rfl⟩ : ∃ (p : Fin 5000) (q : Fin 128), j = ix2 p q := ⟨j 0, j 1, eq_ix2 j⟩
  unfold k1_pay1
  simp only [shapeCast_self, matmul]
  rw [maximumf_apply, addf_apply, addf_apply, broadcast_apply, broadcastTo_1b_ab_apply, dot128_eq,
    Cert.Lib.PlainMatmul.matmul_zero_apply, Cert.Lib.PlainMatmul.matmul_zero_apply]
  rfl

/-- The head's body: the product with the output weights plus the one-row bias, no relu. -/
theorem pay2_eq (v0 : Vec Ideal S5000x128 .f32) (v3 : Vec Ideal S128x112 .f32) (v7 : Vec Ideal S1x112 .f32) :
    k2_pay1 (F := Ideal) v0 v3 v7 = Sage.headT 5000 v0 v3 v7 := by
  funext j
  obtain ⟨p, q, rfl⟩ : ∃ (p : Fin 5000) (q : Fin 112), j = ix2 p q := ⟨j 0, j 1, eq_ix2 j⟩
  unfold k2_pay1
  simp only [shapeCast_self, matmul]
  rw [addf_apply, broadcastTo_1b_ab_apply, dot112_eq, Cert.Lib.PlainMatmul.matmul_zero_apply]
  rfl

end Cert.KernelIdeal.Payload

end
-- ==== Proof.Region0.lean ====
/-
  The first layer's region: what its result array holds when the region is left.

  The grid has twenty points; point `t` reads rows 5000·t … 5000·t + 4999 of the aggregated features and of the
  node's own features, the two weight matrices and the bias whole, and writes back the same rows of the result.  What
  it writes is the layer of the rows it read (the body's computation), and a layer is row-local, so that block is
  the same rows of the layer of the whole arrays.  The twenty blocks tile the result array, so after the region it is
  the layer of the arrays the region found, whatever those were.
-/
import proofs.«161316_j79061757985056_1_alg».proof.Proof.Gen.KernelIdeal.Frame
import proofs.«161316_j79061757985056_1_alg».proof.Proof.Payload
import Idealize.ShloMosaic.Lib.Pipeline.Value

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three row-blocked windows sit at block row `t`, the whole-array windows
    at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The result array the region leaves, as a function of the arrays it found. -/
abbrev result (c : Dev nD) : Buf (Elt Ideal) ((c : Thread nD τ).loc main_v26) :=
  Sage.layerT 100000 (V c main_v22) (V c main_arg0) (V c main_v23) (V c main_v25) (V c main_v24)

/-- What point `t` writes back is block `t` of the layer of the arrays the region found. -/
theorem flushed_eq (c : Dev nD) (t : Fin cfg0.N) :
    (dat0 V c).flushed 5 t = ((cfg0.win 5).blk t).view.read (Elt Ideal) (result V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  rw [Payload.pay0_eq]
  obtain ⟨e00, e01, e10, e11, e20, e21, e30, e31, e40, e41, e50, e51⟩ := idx_facts t
  funext y
  rw [View.read_apply]
  show Sage.layerT 5000 (iblk0 V c 0 t) (iblk0 V c 1 t) (iblk0 V c 2 t) (iblk0 V c 3 t) (iblk0 V c 4 t) y
    = Sage.layerT 100000 (V c main_v22) (V c main_arg0) (V c main_v23) (V c main_v25) (V c main_v24) (((cfg0.win 5).blk t).view.emb y)
  refine Sage.layerT_congr _ _ _ _ _ _ _ _ _ _ _ _ (fun k => ?_) (fun k => ?_) (fun k => ?_) (fun k => ?_) ?_
  · show V c main_v22 (((cfg0.win 0).blk t).view.emb (ix2 (y 0) k)) = _
    refine congrArg (V c main_v22) (funext fun a => Fin.ext ?_)
    match a with
    | ⟨0, _⟩ => show win0_0.index t (0 : Fin 2) * 5000 + 1 * (y 0).val = win0_5.index t (0 : Fin 2) * 5000 + 1 * (y 0).val; rw [e00, e50]
    | ⟨1, _⟩ => show win0_0.index t (1 : Fin 2) * 128 + 1 * k.val = k.val; rw [e01]; omega
  · show V c main_arg0 (((cfg0.win 1).blk t).view.emb (ix2 (y 0) k)) = _
    refine congrArg (V c main_arg0) (funext fun a => Fin.ext ?_)
    match a with
    | ⟨0, _⟩ => show win0_1.index t (0 : Fin 2) * 5000 + 1 * (y 0).val = win0_5.index t (0 : Fin 2) * 5000 + 1 * (y 0).val; rw [e10, e50]
    | ⟨1, _⟩ => show win0_1.index t (1 : Fin 2) * 128 + 1 * k.val = k.val; rw [e11]; omega
  · show V c main_v23 (((cfg0.win 2).blk t).view.emb (ix2 k (y 1))) = _
    refine congrArg (V c main_v23) (funext fun a => Fin.ext ?_)
    match a with
    | ⟨0, _⟩ => show win0_2.index t (0 : Fin 2) * 128 + 1 * k.val = k.val; rw [e20]; omega
    | ⟨1, _⟩ => show win0_2.index t (1 : Fin 2) * 128 + 1 * (y 1).val = win0_5.index t (1 : Fin 2) * 128 + 1 * (y 1).val; rw [e21, e51]
  · show V c main_v24 (((cfg0.win 4).blk t).view.emb (ix2 k (y 1))) = _
    refine congrArg (V c main_v24) (funext fun a => Fin.ext ?_)
    match a with
    | ⟨0, _⟩ => show win0_4.index t (0 : Fin 2) * 128 + 1 * k.val = k.val; rw [e40]; omega
    | ⟨1, _⟩ => show win0_4.index t (1 : Fin 2) * 128 + 1 * (y 1).val = win0_5.index t (1 : Fin 2) * 128 + 1 * (y 1).val; rw [e41, e51]
  · show V c main_v25 (((cfg0.win 3).blk t).view.emb (ix2 (0 : Fin 1) (y 1))) = _
    refine congrArg (V c main_v25) (funext fun a => Fin.ext ?_)
    match a with
    | ⟨0, _⟩ => show win0_3.index t (0 : Fin 2) * 1 + 1 * 0 = 0; rw [e30]
    | ⟨1, _⟩ => show win0_3.index t (1 : Fin 2) * 128 + 1 * (y 1).val = win0_5.index t (1 : Fin 2) * 128 + 1 * (y 1).val; rw [e31, e51]

/-- An index of the result array lies in point `t`'s block iff each coordinate lies in the block's range on its axis. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v26).slice (win0_5.rect t)).set ↔ _
  rw [View.set_slice_whole, Rect.mem_set_unit]
  exact Iff.rfl

/-- The twenty row blocks tile the result array: row `r` lies in the block of point `r / 5000`. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  have ht : (i 0).val / 5000 < cfg0.N := by rw [hN]; omega
  refine ⟨⟨(i 0).val / 5000, ht⟩, flush0_5 _, ?_⟩
  rw [mem_blk]
  obtain ⟨-, -, -, -, -, -, -, -, -, -, e50, e51⟩ := idx_facts ⟨(i 0).val / 5000, ht⟩
  intro a
  match a with
  | ⟨0, _⟩ =>
    show win0_5.index ⟨(i 0).val / 5000, ht⟩ (0 : Fin 2) * 5000 ≤ (i 0).val ∧ (i 0).val < win0_5.index ⟨(i 0).val / 5000, ht⟩ (0 : Fin 2) * 5000 + 5000
    rw [e50]; dsimp only; omega
  | ⟨1, _⟩ =>
    show win0_5.index ⟨(i 0).val / 5000, ht⟩ (1 : Fin 2) * 128 ≤ (i 1).val ∧ (i 1).val < win0_5.index ⟨(i 0).val / 5000, ht⟩ (1 : Fin 2) * 128 + 128
    rw [e51]; omega

/-- After the region its result array is the layer of the arrays it found. -/
theorem final (c : Dev nD) : (dat0 V c).arrAt 5 cfg0.N = result V c :=
  (dat0 V c).arrAt_eq_of_cover 5 (result V c) (fun t _ => flushed_eq V c t) cover

end Cert.KernelIdeal.Region0

end
-- ==== Proof.Region1.lean ====
/-
  The second layer's region: what its result array holds when the region is left.

  The grid has twenty points; point `t` reads rows 5000·t … 5000·t + 4999 of the aggregated features and of the
  first layer's result, the two weight matrices and the bias whole, and writes back the same rows of the result.  What
  it writes is the layer of the rows it read (the body's computation), and a layer is row-local, so that block is
  the same rows of the layer of the whole arrays.  The twenty blocks tile the result array, so after the region it is
  the layer of the arrays the region found, whatever those were.
-/
import proofs.«161316_j79061757985056_1_alg».proof.Proof.Gen.KernelIdeal.Frame
import proofs.«161316_j79061757985056_1_alg».proof.Proof.Payload
import Idealize.ShloMosaic.Lib.Pipeline.Value

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three row-blocked windows sit at block row `t`, the whole-array windows
    at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The result array the region leaves, as a function of the arrays it found. -/
abbrev result (c : Dev nD) : Buf (Elt Ideal) ((c : Thread nD τ).loc main_v42) :=
  Sage.layerT 100000 (V c main_v38) (V c main_v26) (V c main_v39) (V c main_v41) (V c main_v40)

/-- What point `t` writes back is block `t` of the layer of the arrays the region found. -/
theorem flushed_eq (c : Dev nD) (t : Fin cfg1.N) :
    (dat1 V c).flushed 5 t = ((cfg1.win 5).blk t).view.read (Elt Ideal) (result V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  rw [Payload.pay1_eq]
  obtain ⟨e00, e01, e10, e11, e20, e21, e30, e31, e40, e41, e50, e51⟩ := idx_facts t
  funext y
  rw [View.read_apply]
  show Sage.layerT 5000 (iblk1 V c 0 t) (iblk1 V c 1 t) (iblk1 V c 2 t) (iblk1 V c 3 t) (iblk1 V c 4 t) y
    = Sage.layerT 100000 (V c main_v38) (V c main_v26) (V c main_v39) (V c main_v41) (V c main_v40) (((cfg1.win 5).blk t).view.emb y)
  refine Sage.layerT_congr _ _ _ _ _ _ _ _ _ _ _ _ (fun k => ?_) (fun k => ?_) (fun k => ?_) (fun k => ?_) ?_
  · show V c main_v38 (((cfg1.win 0).blk t).view.emb (ix2 (y 0) k)) = _
    refine congrArg (V c main_v38) (funext fun a => Fin.ext ?_)
    match a with
    | ⟨0, _⟩ => show win1_0.index t (0 : Fin 2) * 5000 + 1 * (y 0).val = win1_5.index t (0 : Fin 2) * 5000 + 1 * (y 0).val; rw [e00, e50]
    | ⟨1, _⟩ => show win1_0.index t (1 : Fin 2) * 128 + 1 * k.val = k.val; rw [e01]; omega
  · show V c main_v26 (((cfg1.win 1).blk t).view.emb (ix2 (y 0) k)) = _
    refine congrArg (V c main_v26) (funext fun a => Fin.ext ?_)
    match a with
    | ⟨0, _⟩ => show win1_1.index t (0 : Fin 2) * 5000 + 1 * (y 0).val = win1_5.index t (0 : Fin 2) * 5000 + 1 * (y 0).val; rw [e10, e50]
    | ⟨1, _⟩ => show win1_1.index t (1 : Fin 2) * 128 + 1 * k.val = k.val; rw [e11]; omega
  · show V c main_v39 (((cfg1.win 2).blk t).view.emb (ix2 k (y 1))) = _
    refine congrArg (V c main_v39) (funext fun a => Fin.ext ?_)
    match a with
    | ⟨0, _⟩ => show win1_2.index t (0 : Fin 2) * 128 + 1 * k.val = k.val; rw [e20]; omega
    | ⟨1, _⟩ => show win1_2.index t (1 : Fin 2) * 128 + 1 * (y 1).val = win1_5.index t (1 : Fin 2) * 128 + 1 * (y 1).val; rw [e21, e51]
  · show V c main_v40 (((cfg1.win 4).blk t).view.emb (ix2 k (y 1))) = _
    refine congrArg (V c main_v40) (funext fun a => Fin.ext ?_)
    match a with
    | ⟨0, _⟩ => show win1_4.index t (0 : Fin 2) * 128 + 1 * k.val = k.val; rw [e40]; omega
    | ⟨1, _⟩ => show win1_4.index t (1 : Fin 2) * 128 + 1 * (y 1).val = win1_5.index t (1 : Fin 2) * 128 + 1 * (y 1).val; rw [e41, e51]
  · show V c main_v41 (((cfg1.win 3).blk t).view.emb (ix2 (0 : Fin 1) (y 1))) = _
    refine congrArg (V c main_v41) (funext fun a => Fin.ext ?_)
    match a with
    | ⟨0, _⟩ => show win1_3.index t (0 : Fin 2) * 1 + 1 * 0 = 0; rw [e30]
    | ⟨1, _⟩ => show win1_3.index t (1 : Fin 2) * 128 + 1 * (y 1).val = win1_5.index t (1 : Fin 2) * 128 + 1 * (y 1).val; rw [e31, e51]

/-- An index of the result array lies in point `t`'s block iff each coordinate lies in the block's range on its axis. -/
theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v42).slice (win1_5.rect t)).set ↔ _
  rw [View.set_slice_whole, Rect.mem_set_unit]
  exact Iff.rfl

/-- The twenty row blocks tile the result array: row `r` lies in the block of point `r / 5000`. -/
theorem cover (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  have ht : (i 0).val / 5000 < cfg1.N := by rw [hN]; omega
  refine ⟨⟨(i 0).val / 5000, ht⟩, flush1_5 _, ?_⟩
  rw [mem_blk]
  obtain ⟨-, -, -, -, -, -, -, -, -, -, e50, e51⟩ := idx_facts ⟨(i 0).val / 5000, ht⟩
  intro a
  match a with
  | ⟨0, _⟩ =>
    show win1_5.index ⟨(i 0).val / 5000, ht⟩ (0 : Fin 2) * 5000 ≤ (i 0).val ∧ (i 0).val < win1_5.index ⟨(i 0).val / 5000, ht⟩ (0 : Fin 2) * 5000 + 5000
    rw [e50]; dsimp only; omega
  | ⟨1, _⟩ =>
    show win1_5.index ⟨(i 0).val / 5000, ht⟩ (1 : Fin 2) * 128 ≤ (i 1).val ∧ (i 1).val < win1_5.index ⟨(i 0).val / 5000, ht⟩ (1 : Fin 2) * 128 + 128
    rw [e51]; omega

/-- After the region its result array is the layer of the arrays it found. -/
theorem final (c : Dev nD) : (dat1 V c).arrAt 5 cfg1.N = result V c :=
  (dat1 V c).arrAt_eq_of_cover 5 (result V c) (fun t _ => flushed_eq V c t) cover

end Cert.KernelIdeal.Region1

end
-- ==== Proof.Region2.lean ====
/-
  The head's region: what the program's result array holds when the last region is left.

  The grid has twenty points; point `t` reads rows 5000·t … 5000·t + 4999 of the second layer's result, the output
  weights and the output bias whole, and writes back the same rows of the result, 112 channels wide.  What it writes is
  the head of the rows it read, and the head is row-local, so that block is the same rows of the head of the whole
  arrays.  The twenty blocks tile the result array, so after the region it is the head of the arrays the region found.
-/
import proofs.«161316_j79061757985056_1_alg».proof.Proof.Gen.KernelIdeal.Frame
import proofs.«161316_j79061757985056_1_alg».proof.Proof.Payload
import Idealize.ShloMosaic.Lib.Pipeline.Value

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two row-blocked windows sit at block row `t`, the whole-array windows
    at block (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The result array the region leaves, as a function of the arrays it found. -/
abbrev result (c : Dev nD) : Buf (Elt Ideal) ((c : Thread nD τ).loc main_v45) :=
  Sage.headT 100000 (V c main_v42) (V c main_v43) (V c main_v44)

/-- What point `t` writes back is block `t` of the head of the arrays the region found. -/
theorem flushed_eq (c : Dev nD) (t : Fin cfg2.N) :
    (dat2 V c).flushed 3 t = ((cfg2.win 3).blk t).view.read (Elt Ideal) (result V c) := by
  show (cfg2.win 3).cut (grid2.coords t) ((dat2 V c).after 3 t) = _
  rw [after2_3]
  unfold out2_3
  rw [View.canon_unit_zero hz]
  simp only [View.ld_unit_zero (S := S5000x128) hz, View.ld_unit_zero (S := S128x112) hz, View.ld_unit_zero (S := S1x112) hz]
  rw [Payload.pay2_eq]
  obtain ⟨e00, e01, e10, e11, e20, e21, e30, e31⟩ := idx_facts t
  funext y
  rw [View.read_apply]
  show Sage.headT 5000 (iblk2 V c 0 t) (iblk2 V c 1 t) (iblk2 V c 2 t) y
    = Sage.headT 100000 (V c main_v42) (V c main_v43) (V c main_v44) (((cfg2.win 3).blk t).view.emb y)
  refine Sage.headT_congr _ _ _ _ _ _ _ _ (fun k => ?_) (fun k => ?_) ?_
  · show V c main_v42 (((cfg2.win 0).blk t).view.emb (ix2 (y 0) k)) = _
    refine congrArg (V c main_v42) (funext fun a => Fin.ext ?_)
    match a with
    | ⟨0, _⟩ => show win2_0.index t (0 : Fin 2) * 5000 + 1 * (y 0).val = win2_3.index t (0 : Fin 2) * 5000 + 1 * (y 0).val; rw [e00, e30]
    | ⟨1, _⟩ => show win2_0.index t (1 : Fin 2) * 128 + 1 * k.val = k.val; rw [e01]; omega
  · show V c main_v43 (((cfg2.win 1).blk t).view.emb (ix2 k (y 1))) = _
    refine congrArg (V c main_v43) (funext fun a => Fin.ext ?_)
    match a with
    | ⟨0, _⟩ => show win2_1.index t (0 : Fin 2) * 128 + 1 * k.val = k.val; rw [e10]; omega
    | ⟨1, _⟩ => show win2_1.index t (1 : Fin 2) * 112 + 1 * (y 1).val = win2_3.index t (1 : Fin 2) * 112 + 1 * (y 1).val; rw [e11, e31]
  · show V c main_v44 (((cfg2.win 2).blk t).view.emb (ix2 (0 : Fin 1) (y 1))) = _
    refine congrArg (V c main_v44) (funext fun a => Fin.ext ?_)
    match a with
    | ⟨0, _⟩ => show win2_2.index t (0 : Fin 2) * 1 + 1 * 0 = 0; rw [e20]
    | ⟨1, _⟩ => show win2_2.index t (1 : Fin 2) * 112 + 1 * (y 1).val = win2_3.index t (1 : Fin 2) * 112 + 1 * (y 1).val; rw [e21, e31]

/-- An index of the result array lies in point `t`'s block iff each coordinate lies in the block's range on its axis. -/
theorem mem_blk (t : Fin cfg2.N) (i : S100000x112.Idx) :
    i ∈ ((cfg2.win 3).blk t).view.set ↔ ∀ a : Fin 2, win2_3.index t a * S5000x112.size a ≤ (i a).val ∧ (i a).val < win2_3.index t a * S5000x112.size a + S5000x112.size a := by
  show i ∈ ((View.whole main_v45).slice (win2_3.rect t)).set ↔ _
  rw [View.set_slice_whole, Rect.mem_set_unit]
  exact Iff.rfl

/-- The twenty row blocks tile the result array: row `r` lies in the block of point `r / 5000`. -/
theorem cover (i : S100000x112.Idx) : ∃ t : Fin cfg2.N, (cfg2.win 3).flush t = true ∧ i ∈ ((cfg2.win 3).blk t).view.set := by
  have hi0 : (i 0).val < 100000 := (i 0).isLt
  have hi1 : (i 1).val < 112 := (i 1).isLt
  have hN : cfg2.N = 20 := N_2
  have ht : (i 0).val / 5000 < cfg2.N := by rw [hN]; omega
  refine ⟨⟨(i 0).val / 5000, ht⟩, flush2_3 _, ?_⟩
  rw [mem_blk]
  obtain ⟨-, -, -, -, -, -, e30, e31⟩ := idx_facts ⟨(i 0).val / 5000, ht⟩
  intro a
  match a with
  | ⟨0, _⟩ =>
    show win2_3.index ⟨(i 0).val / 5000, ht⟩ (0 : Fin 2) * 5000 ≤ (i 0).val ∧ (i 0).val < win2_3.index ⟨(i 0).val / 5000, ht⟩ (0 : Fin 2) * 5000 + 5000
    rw [e30]; dsimp only; omega
  | ⟨1, _⟩ =>
    show win2_3.index ⟨(i 0).val / 5000, ht⟩ (1 : Fin 2) * 112 ≤ (i 1).val ∧ (i 1).val < win2_3.index ⟨(i 0).val / 5000, ht⟩ (1 : Fin 2) * 112 + 112
    rw [e31]; omega

/-- After the region its result array is the head of the arrays it found. -/
theorem final (c : Dev nD) : (dat2 V c).arrAt 3 cfg2.N = result V c :=
  (dat2 V c).arrAt_eq_of_cover 3 (result V c) (fun t _ => flushed_eq V c t) cover

end Cert.KernelIdeal.Region2

end
-- ==== Proof.HostValue.lean ====
/-
  The contents of the TensorCore's buffers at each boundary of the idealized kernel program, and the network they
  compose to.

  The program alternates host stretches and kernel regions.  The host operations compute three kinds of array: the
  neighbour-mean aggregation `agg e h` of a feature array `h` along the edge list `e` (the edge list's two rows, the
  clamped in-degree column, a gather along the sources, a segment sum over the targets, a division); a weight matrix
  transposed, which entry by entry is `Sage.tr`; and a bias vector reshaped to one row, which is `Sage.row1`.  A
  buffer that no operation of a stretch writes, and that is no array of a region, holds after it what it held before:
  so every argument is still the launch memory's array wherever it is read, and the edge slices and the in-degree
  column computed in the first stretch are still there when the second stretch aggregates again.

  Each region leaves, in its result array, a function of the arrays it found: the first and the second a layer
  `Sage.layerT` of (aggregated features, own features, transposed left weights, bias row, transposed right weights),
  the third the head `Sage.headT` of (features, transposed weights, bias row).  Boundary by boundary:

    after stretch 0   main_v22 = agg e x,  main_v23 = tr wl1,  main_v25 = row1 b1,  main_v24 = tr wr1
    after region 0    main_v26 = L1 := layerT (agg e x) x (tr wl1) (row1 b1) (tr wr1)
    after stretch 1   main_v38 = agg e L1, main_v39 = tr wl2,  main_v41 = row1 b2,  main_v40 = tr wr2
    after region 1    main_v42 = L2 := layerT (agg e L1) L1 (tr wl2) (row1 b2) (tr wr2)
    after stretch 2   main_v43 = tr wo,    main_v44 = row1 bo
    after region 2    main_v45 = headT L2 (tr wo) (row1 bo)

  and the last line is `Sage.net` of the arguments by definition.  The aggregation is compared with the host
  operations' composed term once per stretch and is otherwise never opened.
-/
import proofs.«161316_j79061757985056_1_alg».proof.Proof.Gen.KernelIdeal.Frame
import proofs.«161316_j79061757985056_1_alg».proof.Proof.Region0
import proofs.«161316_j79061757985056_1_alg».proof.Proof.Region1
import proofs.«161316_j79061757985056_1_alg».proof.Proof.Region2
import Idealize.ShloMosaic.Lib.StableHlo.Run
import Idealize.ShloMosaic.Lib.ValueLayout

set_option maxRecDepth 16384

noncomputable section

namespace Cert.KernelIdeal.HostValue

open Idealize.ShloMosaic Idealize.ShloMosaic.TcCoe Idealize.ShloMosaic.ValueIdx Idealize.SL.Sem Idealize.ShloMosaic.StableHlo
open Cert.KernelIdeal Cert.KernelIdeal.Gen

section
variable {F : FTy → Type} [FloatOps F]

/-- The source node of each edge: row 0 of the edge list. -/
def src (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000

/-- The target node of each edge: row 1 of the edge list. -/
def dst (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000

/-- Each node's in-degree, clamped below at one, as a column: a one per edge summed into the edge's target, the
    maximum with one. -/
def degcol (e : (⟨S2x1600000, .i32⟩ : BufTy).Contents (Elt F)) : (⟨S100000x1, .f32⟩ : BufTy).Contents (Elt F) :=
  broadcastInDim S100000x1 ![0] bcast_S100000_S100000x1_0
    (maximumf
      (Host.scatterAdd scatter_S100000_S1600000x1_S1600000_n_0_0_1
        (broadcastInDim S100000 ![] bcast_S_S100000 (constant S_ .f32 0x00000000#32))
        (broadcastInDim S1600000x1 ![0] bcast_S1600000_S1600000x1_0 (dst e))
        (broadcastInDim S1600000 ![] bcast_S_S1600000 (constant S_ .f32 0x3F800000#32)))
      (broadcastInDim S100000 ![] bcast_S_S100000 (constant S_ .f32 0x3F800000#32)))

/-- The neighbour-mean aggregation of node features `h` along the edges `e`: the source's row gathered for each edge
    (a negative source index wrapped by the number of nodes), summed into the edge's target, divided by the clamped
    in-degree.  Never opened: both programs compute it by these same operations. -/
def agg (e : (⟨S2x1600000, .i32⟩ : BufTy).Contents (Elt F)) (h : (⟨S100000x128, .f32⟩ : BufTy).Contents (Elt F)) :
    (⟨S100000x128, .f32⟩ : BufTy).Contents (Elt F) :=
  Host.divf
    (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 (dst e))
      (Host.gather gather_S100000x128_S1600000x1_S1600000x128_1_0_n_n_0_1_1128 h
        (broadcastInDim S1600000x1 ![0] bcast_S1600000_S1600000x1_0
          (select (cmpi .slt (src e) (broadcastInDim S1600000 ![] bcast_S_S1600000 (constantI S_ 32 0#32)))
            (addi (src e) (broadcastInDim S1600000 ![] bcast_S_S1600000 (constantI S_ 32 100000#32)))
            (src e)))))
    (broadcastInDim S100000x128 ![0, 1] bcast_S100000x1_S100000x128_0_1 (degcol e))
end

variable (m : (ℓ : Loc nD τ sig) → Buf (Elt Ideal) ℓ) (ρ : Dev nD → PrngReg)

/-! ## A buffer a host stretch does not write keeps its contents across the stretch -/

/-- The side condition "no operation of the stretch writes this buffer", operation by operation. -/
local macro "unwritten" : tactic => `(tactic| (
  refine List.forall_iff_forall_mem.mp ?_
  simp only [hostOps0, hostOps1, hostOps2, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

theorem W1_of_unwritten (c : Dev nD) (b : Ref sig .tc)
    (h : ∀ op ∈ (hostOps0 : List (HloOp τ sig (Elt Ideal))), Proc.devRef .tc b ∉ op.writes) :
    W1 m ρ c (Proc.devRef .tc b) = W0 m ρ c (Proc.devRef .tc b) :=
  StableHlo.after_of_forall_not_mem (b := Proc.devRef .tc b) _ _ h

theorem W3_of_unwritten (c : Dev nD) (b : Ref sig .tc)
    (h : ∀ op ∈ (hostOps1 : List (HloOp τ sig (Elt Ideal))), Proc.devRef .tc b ∉ op.writes) :
    W3 m ρ c (Proc.devRef .tc b) = W2 m ρ c (Proc.devRef .tc b) :=
  StableHlo.after_of_forall_not_mem (b := Proc.devRef .tc b) _ _ h

theorem W5_of_unwritten (c : Dev nD) (b : Ref sig .tc)
    (h : ∀ op ∈ (hostOps2 : List (HloOp τ sig (Elt Ideal))), Proc.devRef .tc b ∉ op.writes) :
    W5 m ρ c (Proc.devRef .tc b) = W4 m ρ c (Proc.devRef .tc b) :=
  StableHlo.after_of_forall_not_mem (b := Proc.devRef .tc b) _ _ h

/-! ## The arguments at the boundaries where they are read: still as launched -/

theorem W1_arg0 (c : Dev nD) : W1 m ρ c (Proc.devRef .tc main_arg0) = m ((c.tc : Thread nD τ).loc main_arg0) :=
  (W1_of_unwritten m ρ c main_arg0 (by unwritten)).trans rfl

theorem W2_arg5 (c : Dev nD) : W2 m ρ c (Proc.devRef .tc main_arg5) = m ((c.tc : Thread nD τ).loc main_arg5) :=
  ((W2_of_ne m ρ c main_arg5 (by decide)).trans (W1_of_unwritten m ρ c main_arg5 (by unwritten))).trans rfl

theorem W2_arg6 (c : Dev nD) : W2 m ρ c (Proc.devRef .tc main_arg6) = m ((c.tc : Thread nD τ).loc main_arg6) :=
  ((W2_of_ne m ρ c main_arg6 (by decide)).trans (W1_of_unwritten m ρ c main_arg6 (by unwritten))).trans rfl

theorem W2_arg7 (c : Dev nD) : W2 m ρ c (Proc.devRef .tc main_arg7) = m ((c.tc : Thread nD τ).loc main_arg7) :=
  ((W2_of_ne m ρ c main_arg7 (by decide)).trans (W1_of_unwritten m ρ c main_arg7 (by unwritten))).trans rfl

theorem W4_arg8 (c : Dev nD) : W4 m ρ c (Proc.devRef .tc main_arg8) = m ((c.tc : Thread nD τ).loc main_arg8) :=
  ((W4_of_ne m ρ c main_arg8 (by decide)).trans ((W3_of_unwritten m ρ c main_arg8 (by unwritten)).trans
    ((W2_of_ne m ρ c main_arg8 (by decide)).trans (W1_of_unwritten m ρ c main_arg8 (by unwritten))))).trans rfl

theorem W4_arg9 (c : Dev nD) : W4 m ρ c (Proc.devRef .tc main_arg9) = m ((c.tc : Thread nD τ).loc main_arg9) :=
  ((W4_of_ne m ρ c main_arg9 (by decide)).trans ((W3_of_unwritten m ρ c main_arg9 (by unwritten)).trans
    ((W2_of_ne m ρ c main_arg9 (by decide)).trans (W1_of_unwritten m ρ c main_arg9 (by unwritten))))).trans rfl

/-! ## A transposed weight matrix and a one-row bias, entry by entry -/

theorem transpose_eq_tr {A B : Nat} (w : FVec Ideal ⟨2, ![A, B]⟩ .f32)
    (h : (⟨2, ![A, B]⟩ : Shape).Transposes [1, 0] ⟨2, ![B, A]⟩) :
    transpose ⟨2, ![B, A]⟩ [1, 0] w h = Sage.tr w := by
  funext i
  obtain ⟨p, q, rfl⟩ : ∃ p q, i = ix2 p q := ⟨i 0, i 1, eq_ix2 i⟩
  rw [transpose_ix2_apply]
  rfl

theorem shapeCast_eq_row1 {A : Nat} (b : FVec Ideal ⟨1, ![A]⟩ .f32)
    (h : (⟨1, ![A]⟩ : Shape).ShapeCasts ⟨2, ![1, A]⟩) :
    shapeCast ⟨2, ![1, A]⟩ b h = Sage.row1 b := by
  funext i
  obtain ⟨u, q, rfl⟩ : ∃ u q, i = ix2 u q := ⟨i 0, i 1, eq_ix2 i⟩
  rw [shapeCast_a_1a_apply]
  rfl

/-! ## Host stretch 0: the aggregation of the features, the first layer's weights transposed, its bias as a row -/

theorem V1_arg0 (c : Dev nD) : V1 m ρ c main_arg0 = m ((c.tc : Thread nD τ).loc main_arg0) := W1_arg0 m ρ c

theorem V1_v23 (c : Dev nD) : V1 m ρ c main_v23 = Sage.tr (m ((c.tc : Thread nD τ).loc main_arg2)) := by
  have h : V1 m ρ c main_v23
      = transpose S128x128 [1, 0] (W0 m ρ c (Proc.devRef .tc main_arg2)) transposes_S128x128_S128x128_1_0 := by
    show StableHlo.after hostOps0 (W0 m ρ c) (Proc.devRef .tc main_v23) = _
    after_results
  rw [h]
  exact transpose_eq_tr _ _

theorem V1_v24 (c : Dev nD) : V1 m ρ c main_v24 = Sage.tr (m ((c.tc : Thread nD τ).loc main_arg4)) := by
  have h : V1 m ρ c main_v24
      = transpose S128x128 [1, 0] (W0 m ρ c (Proc.devRef .tc main_arg4)) transposes_S128x128_S128x128_1_0 := by
    show StableHlo.after hostOps0 (W0 m ρ c) (Proc.devRef .tc main_v24) = _
    after_results
  rw [h]
  exact transpose_eq_tr _ _

theorem V1_v25 (c : Dev nD) : V1 m ρ c main_v25 = Sage.row1 (m ((c.tc : Thread nD τ).loc main_arg3)) := by
  have h : V1 m ρ c main_v25
      = shapeCast S1x128 (W0 m ρ c (Proc.devRef .tc main_arg3)) shapeCasts_S128_S1x128 := by
    show StableHlo.after hostOps0 (W0 m ρ c) (Proc.devRef .tc main_v25) = _
    after_results
    rfl
  rw [h]
  exact shapeCast_eq_row1 _ _

/-! ## Host stretch 0: the aggregation of the features -/

theorem V1_v22 (c : Dev nD) :
    V1 m ρ c main_v22 = agg (m ((c.tc : Thread nD τ).loc main_arg1)) (m ((c.tc : Thread nD τ).loc main_arg0)) := by
  show StableHlo.after hostOps0 (W0 m ρ c) (Proc.devRef .tc main_v22) = _
  after_results_simp
  rfl

theorem W1_v1 (c : Dev nD) : W1 m ρ c (Proc.devRef .tc main_v1) = src (m ((c.tc : Thread nD τ).loc main_arg1)) := by
  show StableHlo.after hostOps0 (W0 m ρ c) (Proc.devRef .tc main_v1) = _
  after_results_simp
  rfl

theorem W1_v3 (c : Dev nD) : W1 m ρ c (Proc.devRef .tc main_v3) = dst (m ((c.tc : Thread nD τ).loc main_arg1)) := by
  show StableHlo.after hostOps0 (W0 m ρ c) (Proc.devRef .tc main_v3) = _
  after_results_simp
  rfl

theorem W1_v10 (c : Dev nD) : W1 m ρ c (Proc.devRef .tc main_v10) = degcol (m ((c.tc : Thread nD τ).loc main_arg1)) := by
  show StableHlo.after hostOps0 (W0 m ρ c) (Proc.devRef .tc main_v10) = _
  after_results_simp
  rfl

/-! ## Region 0 leaves the first layer -/

/-- The first layer's output, as a function of the arguments. -/
abbrev L1 (c : Dev nD) : (⟨S100000x128, .f32⟩ : BufTy).Contents (Elt Ideal) :=
  Sage.layerT 100000 (agg (m ((c.tc : Thread nD τ).loc main_arg1)) (m ((c.tc : Thread nD τ).loc main_arg0)))
    (m ((c.tc : Thread nD τ).loc main_arg0)) (Sage.tr (m ((c.tc : Thread nD τ).loc main_arg2)))
    (Sage.row1 (m ((c.tc : Thread nD τ).loc main_arg3))) (Sage.tr (m ((c.tc : Thread nD τ).loc main_arg4)))

theorem W2_v26 (c : Dev nD) : W2 m ρ c (Proc.devRef .tc main_v26) = L1 m c := by
  have h : W2 m ρ c (Proc.devRef .tc main_v26) = (dat0 (V1 m ρ) c).arrAt 5 cfg0.N := W2_arr m ρ c 5
  rw [h, Region0.final (V1 m ρ) c]
  show Sage.layerT 100000 (V1 m ρ c main_v22) (V1 m ρ c main_arg0) (V1 m ρ c main_v23) (V1 m ρ c main_v25)
    (V1 m ρ c main_v24) = _
  rw [V1_v22, V1_arg0, V1_v23, V1_v25, V1_v24]

/-! ## Host stretch 1: the aggregation of the first layer's output (the edge slices and the in-degree are those of
    stretch 0, which region 0 leaves alone), the second layer's weights transposed, its bias as a row -/

theorem W2_v1 (c : Dev nD) : W2 m ρ c (Proc.devRef .tc main_v1) = src (m ((c.tc : Thread nD τ).loc main_arg1)) :=
  (W2_of_ne m ρ c main_v1 (by decide)).trans (W1_v1 m ρ c)

theorem W2_v3 (c : Dev nD) : W2 m ρ c (Proc.devRef .tc main_v3) = dst (m ((c.tc : Thread nD τ).loc main_arg1)) :=
  (W2_of_ne m ρ c main_v3 (by decide)).trans (W1_v3 m ρ c)

theorem W2_v10 (c : Dev nD) : W2 m ρ c (Proc.devRef .tc main_v10) = degcol (m ((c.tc : Thread nD τ).loc main_arg1)) :=
  (W2_of_ne m ρ c main_v10 (by decide)).trans (W1_v10 m ρ c)

theorem V3_v38 (c : Dev nD) :
    V3 m ρ c main_v38 = agg (m ((c.tc : Thread nD τ).loc main_arg1)) (W2 m ρ c (Proc.devRef .tc main_v26)) := by
  show StableHlo.after hostOps1 (W2 m ρ c) (Proc.devRef .tc main_v38) = _
  after_results_simp
  rw [W2_v1, W2_v3, W2_v10]
  rfl

theorem V3_v26 (c : Dev nD) : V3 m ρ c main_v26 = W2 m ρ c (Proc.devRef .tc main_v26) :=
  W3_of_unwritten m ρ c main_v26 (by unwritten)

theorem V3_v39 (c : Dev nD) : V3 m ρ c main_v39 = Sage.tr (m ((c.tc : Thread nD τ).loc main_arg5)) := by
  have h : V3 m ρ c main_v39
      = transpose S128x128 [1, 0] (W2 m ρ c (Proc.devRef .tc main_arg5)) transposes_S128x128_S128x128_1_0 := by
    show StableHlo.after hostOps1 (W2 m ρ c) (Proc.devRef .tc main_v39) = _
    after_results
  rw [h, W2_arg5]
  exact transpose_eq_tr _ _

theorem V3_v40 (c : Dev nD) : V3 m ρ c main_v40 = Sage.tr (m ((c.tc : Thread nD τ).loc main_arg7)) := by
  have h : V3 m ρ c main_v40
      = transpose S128x128 [1, 0] (W2 m ρ c (Proc.devRef .tc main_arg7)) transposes_S128x128_S128x128_1_0 := by
    show StableHlo.after hostOps1 (W2 m ρ c) (Proc.devRef .tc main_v40) = _
    after_results
  rw [h, W2_arg7]
  exact transpose_eq_tr _ _

theorem V3_v41 (c : Dev nD) : V3 m ρ c main_v41 = Sage.row1 (m ((c.tc : Thread nD τ).loc main_arg6)) := by
  have h : V3 m ρ c main_v41
      = shapeCast S1x128 (W2 m ρ c (Proc.devRef .tc main_arg6)) shapeCasts_S128_S1x128 := by
    show StableHlo.after hostOps1 (W2 m ρ c) (Proc.devRef .tc main_v41) = _
    after_results
    rfl
  rw [h, W2_arg6]
  exact shapeCast_eq_row1 _ _

/-! ## Region 1 leaves the second layer -/

/-- The second layer's output, as a function of the arguments. -/
abbrev L2 (c : Dev nD) : (⟨S100000x128, .f32⟩ : BufTy).Contents (Elt Ideal) :=
  Sage.layerT 100000 (agg (m ((c.tc : Thread nD τ).loc main_arg1)) (L1 m c)) (L1 m c)
    (Sage.tr (m ((c.tc : Thread nD τ).loc main_arg5))) (Sage.row1 (m ((c.tc : Thread nD τ).loc main_arg6)))
    (Sage.tr (m ((c.tc : Thread nD τ).loc main_arg7)))

theorem W4_v42 (c : Dev nD) : W4 m ρ c (Proc.devRef .tc main_v42) = L2 m c := by
  have h : W4 m ρ c (Proc.devRef .tc main_v42) = (dat1 (V3 m ρ) c).arrAt 5 cfg1.N := W4_arr m ρ c 5
  rw [h, Region1.final (V3 m ρ) c]
  show Sage.layerT 100000 (V3 m ρ c main_v38) (V3 m ρ c main_v26) (V3 m ρ c main_v39) (V3 m ρ c main_v41)
    (V3 m ρ c main_v40) = _
  rw [V3_v38, V3_v26, V3_v39, V3_v41, V3_v40, W2_v26]

/-! ## Host stretch 2: the head's weights transposed, its bias as a row -/

theorem V5_v42 (c : Dev nD) : V5 m ρ c main_v42 = L2 m c :=
  (W5_of_unwritten m ρ c main_v42 (by unwritten)).trans (W4_v42 m ρ c)

theorem V5_v43 (c : Dev nD) : V5 m ρ c main_v43 = Sage.tr (m ((c.tc : Thread nD τ).loc main_arg8)) := by
  have h : V5 m ρ c main_v43
      = transpose S128x112 [1, 0] (W4 m ρ c (Proc.devRef .tc main_arg8)) transposes_S112x128_S128x112_1_0 := by
    show StableHlo.after hostOps2 (W4 m ρ c) (Proc.devRef .tc main_v43) = _
    after_results
  rw [h, W4_arg8]
  exact transpose_eq_tr _ _

theorem V5_v44 (c : Dev nD) : V5 m ρ c main_v44 = Sage.row1 (m ((c.tc : Thread nD τ).loc main_arg9)) := by
  have h : V5 m ρ c main_v44
      = shapeCast S1x112 (W4 m ρ c (Proc.devRef .tc main_arg9)) shapeCasts_S112_S1x112 := by
    show StableHlo.after hostOps2 (W4 m ρ c) (Proc.devRef .tc main_v44) = _
    after_results
    rfl
  rw [h, W4_arg9]
  exact shapeCast_eq_row1 _ _

/-! ## Region 2 leaves the head: the whole network -/

/-- The result buffer's contents at the last boundary: the network of the arguments. -/
theorem value (c : Dev nD) :
    W6 m ρ c (Proc.devRef .tc main_v45)
      = Sage.net 100000 (agg (m ((c.tc : Thread nD τ).loc main_arg1))) (m ((c.tc : Thread nD τ).loc main_arg0))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) := by
  have h : W6 m ρ c (Proc.devRef .tc main_v45) = (dat2 (V5 m ρ) c).arrAt 3 cfg2.N := W6_arr m ρ c 3
  rw [h, Region2.final (V5 m ρ) c]
  show Sage.headT 100000 (V5 m ρ c main_v42) (V5 m ρ c main_v43) (V5 m ρ c main_v44) = _
  rw [V5_v42, V5_v43, V5_v44]
  rfl

end Cert.KernelIdeal.HostValue

end
-- ==== Proof.RefValue.lean ====
/-
  The reference program, read as the two-layer neighbour-mean network of the specification.

  Stage by stage the reference computes the same layers and the same head as `Sage.net`.  At the extended reals
  a host `dot_general` is the plain sum over the contracted channel, so the entry (p, q) of a product with a
  transposed weight matrix is ∑ₖ h(p,k)·W(q,k), which is the specification's ∑ₖ h(p,k)·Wᵀ(k,q); a bias vector
  broadcast over the rows is read at its one-row form.  The reference adds the bias before the second product,
  (a·Wlᵀ + b) + x·Wrᵀ, and the specification after it, (a·Wlᵀ + x·Wrᵀ) + b: the two are equal by commutativity
  and associativity of the sum alone, which needs no finiteness.  The relu is the maximum with the zero constant.
  The neighbour-mean aggregation is carried as one opaque function `agg`: the reference's gather, segment sums
  and division are the very composite of operations that `agg` names, so the two aggregations of the reference
  are `agg` of the node features and `agg` of the first layer's result.
-/
import proofs.«161316_j79061757985056_1_alg».proof.Proof.Gen.ReferenceIdeal.Run
import proofs.«161316_j79061757985056_1_alg».proof.Proof.Gen.ReferenceIdeal.Read
import proofs.«161316_j79061757985056_1_alg».proof.Proof.Spec
import Idealize.ShloMosaic.Lib.ValueLayout

set_option maxRecDepth 16384

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.Read

section
variable {F : FTy → Type} [FloatOps F]

/-- The source node of each edge: row 0 of the edge list. -/
def src (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000

/-- The target node of each edge: row 1 of the edge list. -/
def dst (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000

/-- Each node's in-degree, clamped below at one, as a column: a one per edge summed into the edge's target, the
    maximum with one. -/
def degcol (e : (⟨S2x1600000, .i32⟩ : BufTy).Contents (Elt F)) : (⟨S100000x1, .f32⟩ : BufTy).Contents (Elt F) :=
  broadcastInDim S100000x1 ![0] bcast_S100000_S100000x1_0
    (maximumf
      (Host.scatterAdd scatter_S100000_S1600000x1_S1600000_n_0_0_1
        (broadcastInDim S100000 ![] bcast_S_S100000 (constant S_ .f32 0x00000000#32))
        (broadcastInDim S1600000x1 ![0] bcast_S1600000_S1600000x1_0 (dst e))
        (broadcastInDim S1600000 ![] bcast_S_S1600000 (constant S_ .f32 0x3F800000#32)))
      (broadcastInDim S100000 ![] bcast_S_S100000 (constant S_ .f32 0x3F800000#32)))

/-- The neighbour-mean aggregation of node features `h` along the edges `e`: the source's row gathered for each edge
    (a negative source index wrapped by the number of nodes), summed into the edge's target, divided by the clamped
    in-degree.  Never opened: both programs compute it by these same operations. -/
def agg (e : (⟨S2x1600000, .i32⟩ : BufTy).Contents (Elt F)) (h : (⟨S100000x128, .f32⟩ : BufTy).Contents (Elt F)) :
    (⟨S100000x128, .f32⟩ : BufTy).Contents (Elt F) :=
  Host.divf
    (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 (dst e))
      (Host.gather gather_S100000x128_S1600000x1_S1600000x128_1_0_n_n_0_1_1128 h
        (broadcastInDim S1600000x1 ![0] bcast_S1600000_S1600000x1_0
          (select (cmpi .slt (src e) (broadcastInDim S1600000 ![] bcast_S_S1600000 (constantI S_ 32 0#32)))
            (addi (src e) (broadcastInDim S1600000 ![] bcast_S_S1600000 (constantI S_ 32 100000#32)))
            (src e)))))
    (broadcastInDim S100000x128 ![0, 1] bcast_S100000x1_S100000x128_0_1 (degcol e))
end

section
variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))
  (x4 x5 : (⟨S128x128, .f32⟩ : BufTy).Contents (Elt Ideal)) (x6 : (⟨S128, .f32⟩ : BufTy).Contents (Elt Ideal))
  (x7 : (⟨S128x128, .f32⟩ : BufTy).Contents (Elt Ideal)) (x8 : (⟨S112x128, .f32⟩ : BufTy).Contents (Elt Ideal))
  (x9 : (⟨S112, .f32⟩ : BufTy).Contents (Elt Ideal))

/-- The reference's first aggregation is `agg` of the node features: the same operations, name by name. -/
theorem ref_agg_v22 : val_main_v22 (F := Ideal) x0 x1 = agg x1 x0 := rfl

/-- The reference's second aggregation is `agg` of the first layer's result (the edge sources, targets and the
    in-degree are computed a second time by the same terms). -/
theorem ref_agg_v54 : val_main_v54 (F := Ideal) x0 x1 x2 x3 x4 = agg x1 (val_main_v31 (F := Ideal) x0 x1 x2 x3 x4) := rfl

/-- The first layer: relu ((a·Wlᵀ + b) + x·Wrᵀ) is the specification's relu ((a·Wlᵀ + x·Wrᵀ) + b). -/
theorem ref_layer1 : val_main_v31 (F := Ideal) x0 x1 x2 x3 x4
    = Sage.layerT 100000 (val_main_v22 (F := Ideal) x0 x1) x0 (Sage.tr x2) (Sage.row1 x3) (Sage.tr x4) := by
  funext i
  rw [val_main_v31_apply, val_main_v30_apply, val_main_v27_apply, val_main_v24_apply, val_main_v29_apply,
    val_main_v26_apply, val_main_v25_apply, val_main_call0_v0_apply, val_main_call0_cst_apply]
  simp only [val_main_v23_apply, val_main_v28_apply]
  unfold Sage.layerT Sage.tr Sage.row1
  have hl : ∀ k : Fin 128, lidx_main_v24 i k = ix2 (i 0) k := fun k =>
    funext fun a => Fin.ext (by match a with | ⟨0, _⟩ => rfl | ⟨1, _⟩ => rfl)
  have hr : ∀ k : Fin 128, idx_main_v23 (ridx_main_v24 i k) = ix2 (ix2 k (i 1) 1) (ix2 k (i 1) 0) := fun k =>
    funext fun a => Fin.ext (by match a with | ⟨0, _⟩ => rfl | ⟨1, _⟩ => rfl)
  have hl' : ∀ k : Fin 128, lidx_main_v29 i k = ix2 (i 0) k := fun k =>
    funext fun a => Fin.ext (by match a with | ⟨0, _⟩ => rfl | ⟨1, _⟩ => rfl)
  have hr' : ∀ k : Fin 128, idx_main_v28 (ridx_main_v29 i k) = ix2 (ix2 k (i 1) 1) (ix2 k (i 1) 0) := fun k =>
    funext fun a => Fin.ext (by match a with | ⟨0, _⟩ => rfl | ⟨1, _⟩ => rfl)
  have hb : idx_main_v25 (idx_main_v26 i) = ix1 (ix2 (0 : Fin 1) (i 1) 1) :=
    funext fun a => Fin.ext (by match a with | ⟨0, _⟩ => rfl)
  simp only [hl, hr, hl', hr', hb, Ideal.addf_def, Ideal.maximumf_def, Ideal.ofBits_def]
  rw [add_right_comm]
  rfl

/-- The second layer, on the aggregated and the plain first-layer features, in the same way. -/
theorem ref_layer2 : val_main_v63 (F := Ideal) x0 x1 x2 x3 x4 x5 x6 x7
    = Sage.layerT 100000 (val_main_v54 (F := Ideal) x0 x1 x2 x3 x4) (val_main_v31 (F := Ideal) x0 x1 x2 x3 x4)
        (Sage.tr x5) (Sage.row1 x6) (Sage.tr x7) := by
  funext i
  rw [val_main_v63_apply, val_main_v62_apply, val_main_v59_apply, val_main_v56_apply, val_main_v61_apply,
    val_main_v58_apply, val_main_v57_apply, val_main_call1_v0_apply, val_main_call1_cst_apply]
  simp only [val_main_v55_apply, val_main_v60_apply]
  unfold Sage.layerT Sage.tr Sage.row1
  have hl : ∀ k : Fin 128, lidx_main_v56 i k = ix2 (i 0) k := fun k =>
    funext fun a => Fin.ext (by match a with | ⟨0, _⟩ => rfl | ⟨1, _⟩ => rfl)
  have hr : ∀ k : Fin 128, idx_main_v55 (ridx_main_v56 i k) = ix2 (ix2 k (i 1) 1) (ix2 k (i 1) 0) := fun k =>
    funext fun a => Fin.ext (by match a with | ⟨0, _⟩ => rfl | ⟨1, _⟩ => rfl)
  have hl' : ∀ k : Fin 128, lidx_main_v61 i k = ix2 (i 0) k := fun k =>
    funext fun a => Fin.ext (by match a with | ⟨0, _⟩ => rfl | ⟨1, _⟩ => rfl)
  have hr' : ∀ k : Fin 128, idx_main_v60 (ridx_main_v61 i k) = ix2 (ix2 k (i 1) 1) (ix2 k (i 1) 0) := fun k =>
    funext fun a => Fin.ext (by match a with | ⟨0, _⟩ => rfl | ⟨1, _⟩ => rfl)
  have hb : idx_main_v57 (idx_main_v58 i) = ix1 (ix2 (0 : Fin 1) (i 1) 1) :=
    funext fun a => Fin.ext (by match a with | ⟨0, _⟩ => rfl)
  simp only [hl, hr, hl', hr', hb, Ideal.addf_def, Ideal.maximumf_def, Ideal.ofBits_def]
  rw [add_right_comm]
  rfl

/-- The head: the product with the transposed output weights plus the bias, as in the specification. -/
theorem ref_head : val_main_v68 (F := Ideal) x0 x1 x2 x3 x4 x5 x6 x7 x8 x9
    = Sage.headT 100000 (val_main_v63 (F := Ideal) x0 x1 x2 x3 x4 x5 x6 x7) (Sage.tr x8) (Sage.row1 x9) := by
  funext i
  rw [val_main_v68_apply, val_main_v65_apply, val_main_v67_apply, val_main_v66_apply]
  simp only [val_main_v64_apply]
  unfold Sage.headT Sage.tr Sage.row1
  have hl : ∀ k : Fin 128, lidx_main_v65 i k = ix2 (i 0) k := fun k =>
    funext fun a => Fin.ext (by match a with | ⟨0, _⟩ => rfl | ⟨1, _⟩ => rfl)
  have hr : ∀ k : Fin 128, idx_main_v64 (ridx_main_v65 i k) = ix2 (ix2 k (i 1) 1) (ix2 k (i 1) 0) := fun k =>
    funext fun a => Fin.ext (by match a with | ⟨0, _⟩ => rfl | ⟨1, _⟩ => rfl)
  have hb : idx_main_v66 (idx_main_v67 i) = ix1 (ix2 (0 : Fin 1) (i 1) 1) :=
    funext fun a => Fin.ext (by match a with | ⟨0, _⟩ => rfl)
  simp only [hl, hr, hb, Ideal.addf_def]
  rfl
end

variable (m : (ℓ : Loc nD τ sig) → Buf (Elt Ideal) ℓ)

/-- The reference's result term: the network of the arguments. -/
theorem value (c : Dev nD) :
    Cert.ReferenceIdeal.Value.res_main_v68 (F := Ideal) m c
      = Sage.net 100000 (agg (m ((c.tc : Thread nD τ).loc main_arg1))) (m ((c.tc : Thread nD τ).loc main_arg0))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) := by
  rw [val_main_v68_eq, ref_head, ref_layer2, ref_agg_v54, ref_layer1, ref_agg_v22]
  rfl

end Cert.ReferenceIdeal.RefValue

end
-- ==== Proof.lean ====
/-
  The certificate of the two-layer neighbour-mean network: the kernel's three tiled matrix-product regions and the
  host operations between them against the plain jnp reference, over the extended reals.

  Both programs aggregate neighbour features by the same host operations (a gather along the edges' sources, a
  segment sum over their targets, a division by the clamped in-degree); that aggregation is carried as one opaque
  function and is never opened.  Around it each program computes, twice, the layer
  relu (a · Wlᵀ + x · Wrᵀ + b) and then the head h · Woᵀ + bo.  The kernel does each on twenty blocks of 5000 rows,
  which tile the 100000 rows, with products into a zero accumulator; the reference does each on the whole arrays with
  `dot_general`.  Over the extended reals a product into zero and `dot_general` are the same sum over the contracted
  channel, a change of float format is the identity, and the two orders in which the bias and the second product are
  added differ by commutativity and associativity of the sum, which hold without any finiteness.  So both results
  are the one function `Sage.net` of the arguments, and the precondition is never opened.

  The three frames: the kernel's two are the generated frame of the three-region program, the reference's is its
  generated run with the result dropped.  The idealization rewrote nothing, so `preserves` is trivial.
-/
import proofs.«161316_j79061757985056_1_alg».proof.Defs
import proofs.«161316_j79061757985056_1_alg».proof.Proof.Gen.Kernel
import proofs.«161316_j79061757985056_1_alg».proof.Proof.Gen.Kernel.Skeleton
import proofs.«161316_j79061757985056_1_alg».proof.Proof.Gen.Kernel.Launch
import proofs.«161316_j79061757985056_1_alg».proof.Proof.Gen.Kernel.Points
import proofs.«161316_j79061757985056_1_alg».proof.Proof.Gen.Kernel.Frame
import proofs.«161316_j79061757985056_1_alg».proof.Proof.Gen.KernelIdeal
import proofs.«161316_j79061757985056_1_alg».proof.Proof.Gen.KernelIdeal.Skeleton
import proofs.«161316_j79061757985056_1_alg».proof.Proof.Gen.KernelIdeal.Launch
import proofs.«161316_j79061757985056_1_alg».proof.Proof.Gen.KernelIdeal.Points
import proofs.«161316_j79061757985056_1_alg».proof.Proof.Gen.KernelIdeal.Frame
import proofs.«161316_j79061757985056_1_alg».proof.Proof.Gen.ReferenceIdeal
import proofs.«161316_j79061757985056_1_alg».proof.Proof.Gen.Pre_finite_inputs
import proofs.«161316_j79061757985056_1_alg».proof.Proof.Gen.ReferenceIdeal.Run
import proofs.«161316_j79061757985056_1_alg».proof.Proof.Gen.ReferenceIdeal.Read
import proofs.«161316_j79061757985056_1_alg».proof.Proof.KernelRun
import proofs.«161316_j79061757985056_1_alg».proof.Proof.HostValue
import proofs.«161316_j79061757985056_1_alg».proof.Proof.RefValue
import Idealize.ShloMosaic.Adequacy
import Idealize.ShloMosaic.Init

noncomputable section

namespace Cert.Proof

open Idealize.ShloMosaic Idealize.SL.Sem

/-- The two programs' aggregations are one function: the same host operations over the same dimension numbers. -/
theorem agg_eq (e : (⟨Cert.KernelIdeal.S2x1600000, .i32⟩ : BufTy).Contents (Elt Ideal)) :
    Cert.KernelIdeal.HostValue.agg (F := Ideal) e = Cert.ReferenceIdeal.RefValue.agg (F := Ideal) e := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both runs end with the result at `Sage.net` of arguments that agree. -/
theorem algebraic : Cert.algebraic_KernelIdeal_ReferenceIdeal := by
  intro m ρ m' ρ' _ hagree
  refine ⟨fun c => Cert.KernelIdeal.Gen.W6 m ρ c (Proc.devRef .tc Cert.KernelIdeal.main_v45),
    Cert.KernelIdeal.GenRun.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  show _ = Cert.KernelIdeal.Gen.W6 m ρ c (Proc.devRef .tc Cert.KernelIdeal.main_v45)
  rw [Cert.ReferenceIdeal.RefValue.value, Cert.KernelIdeal.HostValue.value, h0, h1, h2, h3, h4, h5, h6, h7, h8, h9, agg_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
